-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S1000x256 : S_.BroadcastsInDim S1000x256 (![] : Fin 0 → Fin S1000x256.rank)
  reducesTo_S1000x256_S_d0_1 : S1000x256.ReducesTo [0, 1] S_
  bcast_S_S1000 : S_.BroadcastsInDim S1000 (![] : Fin 0 → Fin S1000.rank)
  reducesTo_S1000_S_d0 : S1000.ReducesTo [0] S_
  reducesTo_S_S_d : S_.ReducesTo [] S_

variable [Facts]

def fn_part2 {F : FTy → Type} [FloatOps F] (main_arg5 : FVec F S256 .f32) (main_arg8 : FVec F S1000 .f32) (main_arg9 : FVec F S_ .f32) (main_v33 : IVec S_ 1) : IVec S_ 1 :=
  let main_v34 : FVec F S1000 .f32 := Host.absf main_arg8
  let main_cst_12 : FVec F S_ .f32 := constant S_ .f32 0x7F800000#32
  let main_v35 : FVec F S1000 .f32 := broadcastInDim S1000 ![] bcast_S_S1000 main_cst_12
  let main_v36 : IVec S1000 1 := cmpf .olt main_v34 main_v35
  let main_c_13 : IVec S_ 1 := constantI S_ 1 1#1
  let main_v37 : IVec S_ 1 := (fun x v => Host.reduce IntOp.andi x v reducesTo_S1000_S_d0 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_cst_16 : FVec F S_ .f32 := constant S_ .f32 0x00000000#32
  let main_v43 : FVec F S256 .f32 := broadcastInDim S256 ![] bcast_S_S256 main_cst_16
  let main_v44 : IVec S256 1 := cmpf .oge main_arg5 main_v43
  let main_c_17 : IVec S_ 1 := constantI S_ 1 1#1
  let main_v45 : IVec S_ 1 := (fun x v => Host.reduce IntOp.andi x v reducesTo_S256_S_d0 h_S_) main_v44 main_c_17
  let main_v46 : IVec S_ 1 := andi main_v42 main_v45
  main_v46

def fn_part1 {F : FTy → Type} [FloatOps F] (main_arg5 : FVec F S256 .f32) (main_arg6 : FVec F S1000x256 .f32) (main_arg7 : FVec F S1000x256 .f32) (main_arg8 : FVec F S1000 .f32) (main_arg9 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1000x256 .f32 := Host.absf main_arg6
  let main_cst_8 : FVec F S_ .f32 := constant S_ .f32 0x7F800000#32
  let main_v25 : FVec F S1000x256 .f32 := broadcastInDim S1000x256 ![] bcast_S_S1000x256 main_cst_8
  let main_v26 : IVec S1000x256 1 := cmpf .olt main_v24 main_v25
  let main_c_9 : IVec S_ 1 := constantI S_ 1 1#1
  let main_v27 : IVec S_ 1 := (fun x v => Host.reduce IntOp.andi x v reducesTo_S1000x256_S_d0_1 h_S_) main_v26 main_c_9
  let main_v28 : IVec S_ 1 := andi main_v23 main_v27
  let main_v29 : FVec F S1000x256 .f32 := Host.absf main_arg7
  let main_cst_10 : FVec F S_ .f32 := constant S_ .f32 0x7F800000#32
  let main_v30 : FVec F S1000x256 .f32 := broadcastInDim S1000x256 ![] bcast_S_S1000x256 main_cst_10
  let main_v31 : IVec S1000x256 1 := cmpf .olt main_v29 main_v30
  let main_c_11 : IVec S_ 1 := constantI S_ 1 1#1
  let main_v32 : IVec S_ 1 := (fun x v => Host.reduce IntOp.andi x v reducesTo_S1000x256_S_d0_1 h_S_) main_v31 main_c_11
  let main_v33 : IVec S_ 1 := andi main_v28 main_v32
  fn_part2 (F := F) main_arg5 main_arg8 main_arg9 main_v33

def fn {F : FTy → Type} [FloatOps F] (main_arg0 : FVec F S64x256x56x56 .f32) (main_arg1 : IVec S64 32) (main_arg2 : FVec F S256 .f32) (main_arg3 : FVec F S256 .f32) (main_arg4 : FVec F S256 .f32) (main_arg5 : FVec F S256 .f32) (main_arg6 : FVec F S1000x256 .f32) (main_arg7 : FVec F S1000x256 .f32) (main_arg8 : FVec F S1000 .f32) (main_arg9 : FVec F S_ .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S64x256 : Shape := ⟨2, ![64, 256]⟩
abbrev S1x256 : Shape := ⟨2, ![1, 256]⟩
abbrev S64x256x1x1 : Shape := ⟨4, ![64, 256, 1, 1]⟩
abbrev S2x256x56x56 : Shape := ⟨4, ![2, 256, 56, 56]⟩
abbrev S2x256x1x1 : Shape := ⟨4, ![2, 256, 1, 1]⟩

abbrev nBuf : Space → Nat
  | .hbm => 90
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000x256, .f32⟩
  | .hbm, ⟨8, _⟩ => ⟨S1000, .f32⟩
  | .hbm, ⟨9, _⟩ => ⟨S_, .f32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S64x1, .i32⟩
  | .hbm, ⟨18, _⟩ => ⟨S64, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S64, .f32⟩
  | .hbm, ⟨23, _⟩ => ⟨S64, .i1⟩
  | .hbm, ⟨24, _⟩ => ⟨S64, .i1⟩
  | .hbm, ⟨25, _⟩ => ⟨S64, .i1⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x256, .f32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S64x1, .i32⟩
  | .hbm, ⟨43, _⟩ => ⟨S64x256, .f32⟩
  | .hbm, ⟨44, _⟩ => ⟨S_, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S64x256, .f32⟩
  | .hbm, ⟨50, _⟩ => ⟨S64x256, .f32⟩
  | .hbm, ⟨51, _⟩ => ⟨S64x256, .f32⟩
  | .hbm, ⟨52, _⟩ => ⟨S64x256, .f32⟩
  | .hbm, ⟨53, _⟩ => ⟨S_, .f32⟩
  | .hbm, ⟨54, _⟩ => ⟨S_, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S64x256, .f32⟩
  | .hbm, ⟨59, _⟩ => ⟨S64x256, .f32⟩
  | .hbm, ⟨60, _⟩ => ⟨S64x256, .f32⟩
  | .hbm, ⟨61, _⟩ => ⟨S64x256, .f32⟩
  | .hbm, ⟨62, _⟩ => ⟨S_, .f32⟩
  | .hbm, ⟨63, _⟩ => ⟨S_, .f32⟩
  | .hbm, ⟨64, _⟩ => ⟨S64x256, .f32⟩
  | .hbm, ⟨65, _⟩ => ⟨S64x256, .f32⟩
  | .hbm, ⟨66, _⟩ => ⟨S64x1, .i1⟩
  | .hbm, ⟨67, _⟩ => ⟨S1x256, .f32⟩
  | .hbm, ⟨68, _⟩ => ⟨S64x256, .i1⟩
  | .hbm, ⟨69, _⟩ => ⟨S64x256, .f32⟩
  | .hbm, ⟨70, _⟩ => ⟨S64x256, .f32⟩
  | .hbm, ⟨71, _⟩ => ⟨S64x1, .i1⟩
  | .hbm, ⟨72, _⟩ => ⟨S1x256, .f32⟩
  | .hbm, ⟨73, _⟩ => ⟨S64x256, .i1⟩
  | .hbm, ⟨74, _⟩ => ⟨S64x256, .f32⟩
  | .hbm, ⟨75, _⟩ => ⟨S64x256, .f32⟩
  | .hbm, ⟨76, _⟩ => ⟨S_, .f32⟩
  | .hbm, ⟨77, _⟩ => ⟨S64x256, .f32⟩
  | .hbm, ⟨78, _⟩ => ⟨S64x256, .f32⟩
  | .hbm, ⟨79, _⟩ => ⟨S64x256, .f32⟩
  | .hbm, ⟨80, _⟩ => ⟨S1x256, .f32⟩
  | .hbm, ⟨81, _⟩ => ⟨S64x256, .f32⟩
  | .hbm, ⟨82, _⟩ => ⟨S64x256, .f32⟩
  | .hbm, ⟨83, _⟩ => ⟨S1x256, .f32⟩
  | .hbm, ⟨84, _⟩ => ⟨S64x256, .f32⟩
  | .hbm, ⟨85, _⟩ => ⟨S64x256, .f32⟩
  | .hbm, ⟨86, _⟩ => ⟨S64x256, .f32⟩
  | .hbm, ⟨87, _⟩ => ⟨S64x256x1x1, .f32⟩
  | .hbm, ⟨88, _⟩ => ⟨S64x256x1x1, .f32⟩
  | .hbm, ⟨89, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S2x256x1x1, .f32⟩
  | .local _ .vmem, ⟨3, _⟩ => ⟨S2x256x1x1, .f32⟩
  | .local _ .vmem, ⟨4, _⟩ => ⟨S2x256x1x1, .f32⟩
  | .local _ .vmem, ⟨5, _⟩ => ⟨S2x256x1x1, .f32⟩
  | .local _ .vmem, ⟨6, _⟩ => ⟨S2x256x56x56, .f32⟩
  | .local _ .vmem, ⟨7, _⟩ => ⟨S2x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_v0 : Ref sig .tc := ⟨.hbm, 73, rfl⟩
abbrev main_call2_v1 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  shapeCasts_S64x256_S64x256x1x1 : S64x256.ShapeCasts S64x256x1x1
  inb_S2x256x56x56_S2x256x56x56_0_0_0_0 : ∀ a, (![0, 0, 0, 0] : Fin 4 → Nat) a + S2x256x56x56.size a ≤ S2x256x56x56.size a
  h_S2x256x56x56 : 0 < S2x256x56x56.numel
  inb_S2x256x1x1_S2x256x1x1_0_0_0_0 : ∀ a, (![0, 0, 0, 0] : Fin 4 → Nat) a + S2x256x1x1.size a ≤ S2x256x1x1.size a
  h_S2x256x1x1 : 0 < S2x256x1x1.numel
  shapeCasts_S2x256x1x1_S2x256x1x1 : S2x256x1x1.ShapeCasts S2x256x1x1
  broadcasts_S2x256x1x1_S2x256x56x56 : S2x256x1x1.Broadcasts S2x256x56x56
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1x1.size a ≤ S64x256x1x1.size a
  hwx0_1 : ∀ i : grid0.Coords, EltTy.bits .f32 = 32 ∨ (Rect.block (s := S64x256x1x1) S2x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x1x1.size a ≤ S64x256x1x1.size a
  hwx0_2 : ∀ i : grid0.Coords, EltTy.bits .f32 = 32 ∨ (Rect.block (s := S64x256x1x1) S2x256x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x56x56.size a ≤ S64x256x56x56.size a
  hwx0_3 : ∀ i : grid0.Coords, EltTy.bits .f32 = 32 ∨ (Rect.block (s := S64x256x56x56) S2x256x56x56.size (cc0_transform_3 i) (hinb0_3 i)).WholeWords (EltTy.packing .f32)

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S2x256x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2x256x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S2x256x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64 : Shape := ⟨1, ![64]⟩
abbrev S256 : Shape := ⟨1, ![256]⟩
abbrev S1000x256 : Shape := ⟨2, ![1000, 256]⟩
abbrev S1000 : Shape := ⟨1, ![1000]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S64x256x1x1 : Shape := ⟨4, ![64, 256, 1, 1]⟩
abbrev S1x256x1x1 : Shape := ⟨4, ![1, 256, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1000x256, .f32⟩
  | .hbm, ⟨7, _⟩ => ⟨S1000x256, .f32⟩
  | .hbm, ⟨8, _⟩ => ⟨S1000, .f32⟩
  | .hbm, ⟨9, _⟩ => ⟨S_, .f32⟩
  | .hbm, ⟨10, _⟩ => ⟨S_, .f32⟩
  | .hbm, ⟨11, _⟩ => ⟨S_, .i1⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .i1⟩
  | .hbm, ⟨24, _⟩ => ⟨S64, .i1⟩
  | .hbm, ⟨25, _⟩ => ⟨S64, .i1⟩
  | .hbm, ⟨26, _⟩ => ⟨S_, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .i32⟩
  | .hbm, ⟨32, _⟩ => ⟨S64, .i32⟩
  | .hbm, ⟨33, _⟩ => ⟨S64, .i1⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S64x1, .i32⟩
  | .hbm, ⟨39, _⟩ => ⟨S64x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S64x256, .f32⟩
  | .hbm, ⟨44, _⟩ => ⟨S_, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S_, .i32⟩
  | .hbm, ⟨50, _⟩ => ⟨S64, .i32⟩
  | .hbm, ⟨51, _⟩ => ⟨S64, .i1⟩
  | .hbm, ⟨52, _⟩ => ⟨S_, .i32⟩
  | .hbm, ⟨53, _⟩ => ⟨S64, .i32⟩
  | .hbm, ⟨54, _⟩ => ⟨S64, .i32⟩
  | .hbm, ⟨55, _⟩ => ⟨S64, .i32⟩
  | .hbm, ⟨56, _⟩ => ⟨S64x1, .i32⟩
  | .hbm, ⟨57, _⟩ => ⟨S64x256, .f32⟩
  | .hbm, ⟨58, _⟩ => ⟨S64x256, .f32⟩
  | .hbm, ⟨59, _⟩ => ⟨S64x256, .f32⟩
  | .hbm, ⟨60, _⟩ => ⟨S64x256, .f32⟩
  | .hbm, ⟨61, _⟩ => ⟨S64x256, .f32⟩
  | .hbm, ⟨62, _⟩ => ⟨S_, .f32⟩
  | .hbm, ⟨63, _⟩ => ⟨S_, .f32⟩
  | .hbm, ⟨64, _⟩ => ⟨S64x256, .f32⟩
  | .hbm, ⟨65, _⟩ => ⟨S64x256, .f32⟩
  | .hbm, ⟨66, _⟩ => ⟨S64x1, .i1⟩
  | .hbm, ⟨67, _⟩ => ⟨S1x256, .f32⟩
  | .hbm, ⟨68, _⟩ => ⟨S64x256, .i1⟩
  | .hbm, ⟨69, _⟩ => ⟨S64x256, .f32⟩
  | .hbm, ⟨70, _⟩ => ⟨S64x256, .f32⟩
  | .hbm, ⟨71, _⟩ => ⟨S64x1, .i1⟩
  | .hbm, ⟨72, _⟩ => ⟨S1x256, .f32⟩
  | .hbm, ⟨73, _⟩ => ⟨S64x256, .i1⟩
  | .hbm, ⟨74, _⟩ => ⟨S64x256, .f32⟩
  | .hbm, ⟨75, _⟩ => ⟨S64x256, .f32⟩
  | .hbm, ⟨76, _⟩ => ⟨S64x256x1x1, .f32⟩
  | .hbm, ⟨77, _⟩ => ⟨S64x256x56x56, .f32⟩
  | .hbm, ⟨78, _⟩ => ⟨S64x256x56x56, .f32⟩
  | .hbm, ⟨79, _⟩ => ⟨S_, .f32⟩
  | .hbm, ⟨80, _⟩ => ⟨S64x256, .f32⟩
  | .hbm, ⟨81, _⟩ => ⟨S64x256, .f32⟩
  | .hbm, ⟨82, _⟩ => ⟨S64x256, .f32⟩
  | .hbm, ⟨83, _⟩ => ⟨S64x256x1x1, .f32⟩
  | .hbm, ⟨84, _⟩ => ⟨S64x256x56x56, .f32⟩
  | .hbm, ⟨85, _⟩ => ⟨S64x256x56x56, .f32⟩
  | .hbm, ⟨86, _⟩ => ⟨S1x256x1x1, .f32⟩
  | .hbm, ⟨87, _⟩ => ⟨S64x256x56x56, .f32⟩
  | .hbm, ⟨88, _⟩ => ⟨S64x256x56x56, .f32⟩
  | .hbm, ⟨89, _⟩ => ⟨S1x256x1x1, .f32⟩
  | .hbm, ⟨90, _⟩ => ⟨S64x256x56x56, .f32⟩
  | .hbm, ⟨91, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_v0 : Ref sig .tc := ⟨.hbm, 73, rfl⟩
abbrev main_call2_v1 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S_S1x256 : S_.BroadcastsInDim S1x256 (![] : Fin 0 → Fin S1x256.rank)
  bcast_S_S64x256 : S_.BroadcastsInDim S64x256 (![] : Fin 0 → Fin S64x256.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  bcast_S256_S1x256x1x1_1 : S256.BroadcastsInDim S1x256x1x1 (![1] : Fin 1 → Fin S1x256x1x1.rank)
  bcast_S1x256x1x1_S64x256x56x56_0_1_2_3 : S1x256x1x1.BroadcastsInDim S64x256x56x56 (![0, 1, 2, 3] : Fin 4 → Fin S64x256x56x56.rank)
  gather_S1000_S64x1_S64_n_0_n_n_0_1_1_wf : GatherDims.WF S1000 S64x1 S64 [] [0] [] [0] [] 1 ![1]
  gather_S1000x256_S64x1_S64x256_1_0_n_n_0_1_1256_wf : GatherDims.WF S1000x256 S64x1 S64x256 [1] [0] [] [0] [] 1 ![1, 256]

variable [Facts₀]

def gather_S1000_S64x1_S64_n_0_n_n_0_1_1 : GatherDims S1000 S64x1 S64 where
  offsetDims := []
  collapsedSliceDims := [0]
  operandBatchingDims := []
  startIndicesBatchingDims := []
  startIndexMap := [0]
  indexVectorDim := 1
  sliceSizes := ![1]
  wf := gather_S1000_S64x1_S64_n_0_n_n_0_1_1_wf
def gather_S1000x256_S64x1_S64x256_1_0_n_n_0_1_1256 : GatherDims S1000x256 S64x1 S64x256 where
  offsetDims := [1]
  collapsedSliceDims := [0]
  operandBatchingDims := []
  startIndicesBatchingDims := []
  startIndexMap := [0]
  indexVectorDim := 1
  sliceSizes := ![1, 256]
  wf := gather_S1000x256_S64x1_S64x256_1_0_n_n_0_1_1256_wf

class Facts : Prop extends Facts₀ where

variable [Facts]
-- ==== Proof.Algebra.lean ====
/-
  The one law that joins the two programs, on the extended reals.

  The kernel folds the normalisation into a scale and a shift: with s = w · u^(-1/2) it returns
  x · s + (b - m · s). The reference normalises first: ((x - m) / √u) · w + b. For a positive u
  (finite or +∞), finite x, w, b and ANY extended real m the two agree: for finite m this is the
  distributive law over the reals; at m = ±∞ both sides are the infinity of sign -(sign m)(sign w),
  or b when w = 0 (where 0 · ±∞ = 0 on both sides); at u = +∞ both sides are b.
-/
import Idealize.ShloMosaic.PureOps.Ideal

namespace Cert.Proof.Norm

open Idealize.ShloMosaic

/-- Scale-and-shift equals normalise-then-affine, for a positive variance term. -/
theorem fused_eq_normalized (x w b : ℝ) (m u : EReal) (hu : 0 < u) :
    (x : EReal) * ((w : EReal) * Ideal.rsqrt u) + ((b : EReal) - m * ((w : EReal) * Ideal.rsqrt u))
      = Ideal.div ((x : EReal) - m) (Ideal.sqrt u) * (w : EReal) + (b : EReal) := by
  induction u using EReal.rec with
  | bot => exact absurd hu (by simp)
  | top =>
    rw [Ideal.rsqrt_top, Ideal.sqrt_top, Ideal.div, if_neg EReal.top_ne_zero, EReal.inv_top]
    simp only [mul_zero, zero_mul, sub_zero, zero_add]
  | coe r =>
    have hr : 0 < r := by exact_mod_cast hu
    have hs : 0 < Real.sqrt r := Real.sqrt_pos.2 hr
    rw [Ideal.rsqrt_coe, Ideal.sqrt_coe, if_neg (not_lt.2 hr.le), if_neg hr.ne', if_neg (not_lt.2 hr.le),
      Ideal.div_coe hs.ne', one_div]
    generalize hq : (Real.sqrt r)⁻¹ = q
    have hq0 : 0 < q := hq ▸ inv_pos.2 hs
    rw [← EReal.coe_mul w q]
    induction m using EReal.rec with
    | coe m =>
      rw [← EReal.coe_mul, ← EReal.coe_mul, ← EReal.coe_sub, ← EReal.coe_add, ← EReal.coe_sub, ← EReal.coe_mul,
        ← EReal.coe_mul, ← EReal.coe_add]
      congr 1; ring
    | top =>
      rw [EReal.sub_top, EReal.bot_mul_coe_of_pos hq0, ← EReal.coe_mul]
      rcases lt_trichotomy w 0 with hw | hw | hw
      · rw [EReal.top_mul_coe_of_neg (mul_neg_of_neg_of_pos hw hq0), EReal.coe_sub_bot, EReal.coe_add_top,
          EReal.bot_mul_coe_of_neg hw, EReal.top_add_coe]
      · subst hw
        simp only [zero_mul, mul_zero, EReal.coe_zero, sub_zero, zero_add]
      · rw [EReal.top_mul_coe_of_pos (mul_pos hw hq0), EReal.sub_top, EReal.add_bot,
          EReal.bot_mul_coe_of_pos hw, EReal.bot_add]
    | bot =>
      rw [EReal.coe_sub_bot, EReal.top_mul_coe_of_pos hq0, ← EReal.coe_mul]
      rcases lt_trichotomy w 0 with hw | hw | hw
      · rw [EReal.bot_mul_coe_of_neg (mul_neg_of_neg_of_pos hw hq0), EReal.sub_top, EReal.add_bot,
          EReal.top_mul_coe_of_neg hw, EReal.bot_add]
      · subst hw
        simp only [zero_mul, mul_zero, EReal.coe_zero, sub_zero, zero_add]
      · rw [EReal.bot_mul_coe_of_pos (mul_pos hw hq0), EReal.coe_sub_bot, EReal.coe_add_top,
          EReal.top_mul_coe_of_pos hw, EReal.top_add_coe]

end Cert.Proof.Norm
-- ==== Proof.PreRead.lean ====
/-
  What the precondition says of the inputs. The printed predicate is a conjunction of ten tests, each reduced by
  "and" over a whole input: nine of the form |x| < +∞ (one per float input) and one of the form v ≥ 0 over the global
  variances. Where it is 1, each test is 1 at every element; |x| < +∞ fails at both infinities, so x is a real number.
-/
import proofs.«128349_j76192719831914_1_alg».proof.Pre_finite_inputs
import Idealize.ShloMosaic.Lib.ReduceAll
import Idealize.ShloMosaic.Lib.ValueIdx
import Idealize.ShloMosaic.PureOps.Ideal
namespace Cert.Proof.PreRead
open Idealize.ShloMosaic Cert.Pre_finite_inputs
variable [Cert.Pre_finite_inputs.Facts]

/-- The result shape of every reduction in the predicate has exactly one index. -/
private instance : Subsingleton S_.Idx := ⟨fun a b => funext fun d => d.elim0⟩

/-- The word 0x7F800000 is the f32 pattern of +∞. -/
private theorem top_lit : Ideal.ofBits .f32 0x7F800000#32 = (⊤ : EReal) := by
  simp [Ideal.ofBits, Ideal.ieee]

/-- The word 0x00000000 is the f32 pattern of 0. -/
private theorem zero_lit : Ideal.ofBits .f32 0x00000000#32 = (0 : EReal) := by
  simp [Ideal.ofBits, Ideal.ieee]

/-- A one-bit word made from a Boolean is 1 only when the Boolean is true. -/
private theorem ofBool_one {b : Bool} (h : BitVec.ofBool b = 1#1) : b = true := by
  cases b
  · exact absurd h (by decide)
  · rfl

/-- The comparison LT on extended reals that came out 1 is the strict order. -/
private theorem lt_of_cmp_olt {x y : EReal} (h : Ideal.cmp .olt x y = 1#1) : x < y := by
  first
    | exact of_decide_eq_true (ofBool_one h)
    | (by_contra hn; simp [Ideal.cmp, hn] at h)

/-- The comparison GE on extended reals that came out 1 is the order, read from the right. -/
private theorem le_of_cmp_oge {x y : EReal} (h : Ideal.cmp .oge x y = 1#1) : y ≤ x := by
  first
    | exact of_decide_eq_true (ofBool_one h)
    | (by_contra hn; simp [Ideal.cmp, hn] at h)

/-- One element test: |x| < +∞ holds only for a real x, because |⊤| = |⊥| = ⊤. -/
private theorem real_of_abs_lt_top (x : EReal)
    (h : Ideal.cmp .olt (max x (-x)) (Ideal.ofBits .f32 0x7F800000#32) = 1#1) : ∃ r : ℝ, x = (r : EReal) := by
  have hlt := lt_of_cmp_olt h
  rw [top_lit] at hlt
  have hxt : x ≠ ⊤ := by
    rintro rfl
    exact lt_irrefl _ (lt_of_le_of_lt (le_max_left _ _) hlt)
  have hxb : x ≠ ⊥ := by
    rintro rfl
    have h2 : -(⊥ : EReal) < ⊤ := lt_of_le_of_lt (le_max_right _ _) hlt
    rw [EReal.neg_bot] at h2
    exact lt_irrefl _ h2
  exact ⟨x.toReal, (EReal.coe_toReal hxt hxb).symm⟩

/-- One element test: x ≥ 0.0, read on the extended reals. -/
private theorem nonneg_of_ge_zero (x : EReal)
    (h : Ideal.cmp .oge x (Ideal.ofBits .f32 0x00000000#32) = 1#1) : (0 : EReal) ≤ x := by
  have hle := le_of_cmp_oge h
  rw [zero_lit] at hle
  exact hle

/-- "Every element has |x| < +∞", reduced by and to 1, makes every element a real number: the reduction
    being 1 makes each element's test 1, and the test at an index compares |a i| with the splat +∞. -/
private theorem all_real {s : Shape} {axes : List (Fin s.rank)} (a : FVec Ideal s .f32)
    (bc : S_.BroadcastsInDim s (![] : Fin 0 → Fin s.rank)) (red : s.ReducesTo axes S_) (hu : 0 < S_.numel)
    (init : IVec S_ 1) (j : S_.Idx)
    (h : Host.reduce IntOp.andi
        (cmpf .olt (Host.absf a) (broadcastInDim s ![] bc (constant (F := Ideal) S_ .f32 0x7F800000#32)))
        init red hu j = 1#1)
    (i : s.Idx) : ∃ r : ℝ, a i = (r : EReal) := by
  have hi : cmpf .olt (Host.absf a) (broadcastInDim s ![] bc (constant (F := Ideal) S_ .f32 0x7F800000#32)) i = 1#1 :=
    Host.reduce_andi_all _ init red hu j h i
  exact real_of_abs_lt_top (a i) hi

/-- "Every element is ≥ 0.0", reduced by and to 1, makes every element nonnegative. -/
private theorem all_nonneg {s : Shape} {axes : List (Fin s.rank)} (a : FVec Ideal s .f32)
    (bc : S_.BroadcastsInDim s (![] : Fin 0 → Fin s.rank)) (red : s.ReducesTo axes S_) (hu : 0 < S_.numel)
    (init : IVec S_ 1) (j : S_.Idx)
    (h : Host.reduce IntOp.andi
        (cmpf .oge a (broadcastInDim s ![] bc (constant (F := Ideal) S_ .f32 0x00000000#32)))
        init red hu j = 1#1)
    (i : s.Idx) : (0 : EReal) ≤ a i := by
  have hi : cmpf .oge a (broadcastInDim s ![] bc (constant (F := Ideal) S_ .f32 0x00000000#32)) i = 1#1 :=
    Host.reduce_andi_all _ init red hu j h i
  exact nonneg_of_ge_zero (a i) hi

/-- The predicate is a left-nested conjunction of ten reductions; being 1 at its one index, each of them is 1.
    The first three give the real entries of the arguments 0, 2 and 3, the last the sign of argument 5. -/
theorem of_pre (a0 : FVec Ideal S64x256x56x56 .f32) (a1 : IVec S64 32) (a2 a3 a4 a5 : FVec Ideal S256 .f32)
    (a6 a7 : FVec Ideal S1000x256 .f32) (a8 : FVec Ideal S1000 .f32) (a9 : FVec Ideal S_ .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
      ∧ (∀ i, (0 : EReal) ≤ a5 i) := by
  have h0 : Cert.Pre_finite_inputs.fn (F := Ideal) a0 a1 a2 a3 a4 a5 a6 a7 a8 a9 ValueIdx.ix0 = 1#1 :=
    congrFun h ValueIdx.ix0
  dsimp only [fn, fn_part1, fn_part2] at h0
  obtain ⟨h42, h45⟩ := IntOp.andi_eq_one.1 h0
  obtain ⟨h38, -⟩ := IntOp.andi_eq_one.1 h42
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨all_real a0 _ _ _ _ _ h3, all_real a2 _ _ _ _ _ h7, all_real a3 _ _ _ _ _ h12,
    all_nonneg a5 _ _ _ _ _ h45⟩
end Cert.Proof.PreRead
-- ==== Proof.KernelArray.lean ====
/-
  From blocks to the whole array. The region's 32 points each write one block of two samples; the blocks tile the
  result array, and what a point writes is, element by element, x times the (sample, channel) entry of the scale array
  plus that entry of the shift array. So the result array is that one function of the three arrays the region reads.
-/
import proofs.«128349_j76192719831914_1_alg».proof.Proof.Gen.KernelIdeal.Value
import Idealize.ShloMosaic.Lib.Pipeline.Value
import Idealize.ShloMosaic.Lib.ValueIdx
noncomputable section
namespace Cert.KernelIdeal.Whole
open Cert.KernelIdeal Cert.KernelIdeal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ)

/-- The (sample, channel) cell of the per-channel arrays that an element of the big array reads. -/
abbrev chan (i : S64x256x56x56.Idx) : S64x256x1x1.Idx := ValueIdx.ix4 (i 0) (i 1) (0 : Fin 1) (0 : Fin 1)

/-- The whole result array as one function of the arrays the region finds: every element of `x` times its
    (sample, channel) scale plus its (sample, channel) shift. -/
abbrev affine (c : Dev nD) : S64x256x56x56.Idx → Elt F .f32 :=
  fun i => FloatOps.addf (FloatOps.mulf (V m c main_arg0 i) (V m c main_v59 (chan i))) (V m c main_v60 (chan i))

/-- The zero offsets of the body's whole-block loads and store, as the constant function. -/
theorem zeros4 : (![0, 0, 0, 0] : Fin 4 → Nat) = fun _ => 0 := funext fun a => by fin_cases a <;> rfl

/-- The four index maps, decided over the 32 grid points: on the sample axis the three input windows sit at the
    output's block index, which is at most 31; on the channel axis and the two trailing axes every block index is 0. -/
theorem index_facts : ∀ t : Fin cfg0.N,
    win0_0.index t (0 : Fin 4) = win0_3.index t (0 : Fin 4)
    ∧ win0_0.index t (1 : Fin 4) = win0_3.index t (1 : Fin 4)
    ∧ win0_0.index t (2 : Fin 4) = win0_3.index t (2 : Fin 4)
    ∧ win0_0.index t (3 : Fin 4) = win0_3.index t (3 : Fin 4)
    ∧ win0_1.index t (0 : Fin 4) = win0_3.index t (0 : Fin 4)
    ∧ win0_1.index t (1 : Fin 4) = 0
    ∧ win0_1.index t (2 : Fin 4) = 0
    ∧ win0_1.index t (3 : Fin 4) = 0
    ∧ win0_2.index t (0 : Fin 4) = win0_3.index t (0 : Fin 4)
    ∧ win0_2.index t (1 : Fin 4) = 0
    ∧ win0_2.index t (2 : Fin 4) = 0
    ∧ win0_2.index t (3 : Fin 4) = 0
    ∧ win0_3.index t (0 : Fin 4) ≤ 31
    ∧ win0_3.index t (1 : Fin 4) = 0
    ∧ win0_3.index t (2 : Fin 4) = 0
    ∧ win0_3.index t (3 : Fin 4) = 0 :=
  (by decide +kernel : ∀ t : Fin grid0.N, _)

/-- Every pair of samples is some grid point's output block. -/
theorem index_onto : ∀ q : Fin 32, ∃ t : Fin cfg0.N, win0_3.index t = ![q.val, 0, 0, 0] :=
  (by decide +kernel : ∀ q : Fin 32, ∃ t : Fin grid0.N, win0_3.index t = ![q.val, 0, 0, 0])

/-- What the body leaves in the output block, for any three loaded blocks: at each index of the block, the first
    block's element times the second's (sample, channel) cell plus the third's. The body's loads read whole blocks at
    zero offsets, so they are the blocks themselves; the one store's canon is then the generated closed form. -/
theorem point_value (P0 : Vec F S2x256x56x56 .f32) (P1 : Vec F S2x256x1x1 .f32) (P2 : Vec F S2x256x1x1 .f32)
    (y : S2x256x56x56.Idx) : out0_3 P0 P1 P2 y = Value.E3 P0 P1 P2 y := by
  have e0 : View.ld P0 r0_0 = P0 := View.ld_unit_zero (S := S2x256x56x56) zeros4 _ P0
  have e1 : View.ld P1 r0_1 = P1 := View.ld_unit_zero (S := S2x256x1x1) zeros4 _ P1
  have e2 : View.ld P2 r0_1 = P2 := View.ld_unit_zero (S := S2x256x1x1) zeros4 _ P2
  unfold out0_3
  rw [e0, e1, e2]
  exact Value.canon3_eq P0 P1 P2 y

/-- Reading three arrays through the three input blocks of point `t` and combining them as the body does gives, at
    each index of the output block, the combination of the arrays at the array index the output block names: the same
    index of the first array, and its (sample, channel) cell of the second and of the third. Stated for arbitrary array
    contents. -/
theorem block_read (A0 : S64x256x56x56.Idx → Elt F .f32) (A1 A2 : S64x256x1x1.Idx → Elt F .f32) (t : Fin cfg0.N)
    (y : S2x256x56x56.Idx) :
    Value.E3 (((cfg0.win 0).blk t).view.read (Elt F) A0) (((cfg0.win 1).blk t).view.read (Elt F) A1)
        (((cfg0.win 2).blk t).view.read (Elt F) A2) y
      = FloatOps.addf (FloatOps.mulf (A0 (((cfg0.win 3).blk t).view.emb y)) (A1 (chan (((cfg0.win 3).blk t).view.emb y))))
          (A2 (chan (((cfg0.win 3).blk t).view.emb y))) := by
  obtain ⟨a00, a01, a02, a03, a10, a11, a12, a13, a20, a21, a22, a23, b0, b1, b2, b3⟩ := index_facts t
  show FloatOps.addf (FloatOps.mulf (A0 (((cfg0.win 0).blk t).view.emb (Value.ix3_0 y)))
        (A1 (((cfg0.win 1).blk t).view.emb (Value.ix3_1 y))))
        (A2 (((cfg0.win 2).blk t).view.emb (Value.ix3_2 y))) = _
  have h0 : ((cfg0.win 0).blk t).view.emb (Value.ix3_0 y) = ((cfg0.win 3).blk t).view.emb y := by
    funext a; apply Fin.ext
    match a with
    | ⟨0, _⟩ => show win0_0.index t (0 : Fin 4) * 2 + 1 * (y 0).val = win0_3.index t (0 : Fin 4) * 2 + 1 * (y 0).val; omega
    | ⟨1, _⟩ => show win0_0.index t (1 : Fin 4) * 256 + 1 * (y 1).val = win0_3.index t (1 : Fin 4) * 256 + 1 * (y 1).val; omega
    | ⟨2, _⟩ => show win0_0.index t (2 : Fin 4) * 56 + 1 * (y 2).val = win0_3.index t (2 : Fin 4) * 56 + 1 * (y 2).val; omega
    | ⟨3, _⟩ => show win0_0.index t (3 : Fin 4) * 56 + 1 * (y 3).val = win0_3.index t (3 : Fin 4) * 56 + 1 * (y 3).val; omega
  have h1 : ((cfg0.win 1).blk t).view.emb (Value.ix3_1 y) = chan (((cfg0.win 3).blk t).view.emb y) := by
    funext a; apply Fin.ext
    match a with
    | ⟨0, _⟩ => show win0_1.index t (0 : Fin 4) * 2 + 1 * (y 0).val = win0_3.index t (0 : Fin 4) * 2 + 1 * (y 0).val; omega
    | ⟨1, _⟩ => show win0_1.index t (1 : Fin 4) * 256 + 1 * (y 1).val = win0_3.index t (1 : Fin 4) * 256 + 1 * (y 1).val; omega
    | ⟨2, _⟩ => show win0_1.index t (2 : Fin 4) * 1 + 1 * 0 = 0; omega
    | ⟨3, _⟩ => show win0_1.index t (3 : Fin 4) * 1 + 1 * 0 = 0; omega
  have h2 : ((cfg0.win 2).blk t).view.emb (Value.ix3_2 y) = chan (((cfg0.win 3).blk t).view.emb y) := by
    funext a; apply Fin.ext
    match a with
    | ⟨0, _⟩ => show win0_2.index t (0 : Fin 4) * 2 + 1 * (y 0).val = win0_3.index t (0 : Fin 4) * 2 + 1 * (y 0).val; omega
    | ⟨1, _⟩ => show win0_2.index t (1 : Fin 4) * 256 + 1 * (y 1).val = win0_3.index t (1 : Fin 4) * 256 + 1 * (y 1).val; omega
    | ⟨2, _⟩ => show win0_2.index t (2 : Fin 4) * 1 + 1 * 0 = 0; omega
    | ⟨3, _⟩ => show win0_2.index t (3 : Fin 4) * 1 + 1 * 0 = 0; omega
  rw [h0, h1, h2]

/-- WHAT POINT `t` WRITES BACK is block `t` of `affine`: the body's result on the three input blocks (`point_value`),
    each block being its array read through the window (`block_read`). -/
theorem flushed_eq (c : Dev nD) (t : Fin cfg0.N) :
    (dats m 0 c).flushed 3 t = ((cfg0.win 3).blk t).view.read (Elt F) (affine m c) := by
  rw [Value.flushed3]
  funext y
  exact (point_value (iblk m c 0 t) (iblk m c 1 t) (iblk m c 2 t) y).trans
    (block_read (V m c main_arg0) (V m c main_v59) (V m c main_v60) t y)

/-- An index of the array is in point `t`'s output block iff each coordinate is in the block's range on its axis. -/
theorem mem_block (t : Fin cfg0.N) (i : S64x256x56x56.Idx) :
    i ∈ ((cfg0.win 3).blk t).view.set ↔ ∀ a : Fin 4, win0_3.index t a * S2x256x56x56.size a ≤ (i a).val ∧ (i a).val < win0_3.index t a * S2x256x56x56.size a + S2x256x56x56.size a := by
  show i ∈ ((View.whole main_v61).slice (win0_3.rect t)).set ↔ _
  rw [View.set_slice_whole, Rect.mem_set_unit]
  exact Iff.rfl

/-- Every index of the array is in the output block of the point that holds its pair of samples. -/
theorem covered (i : S64x256x56x56.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ := index_onto ⟨(i 0).val / 2, by omega⟩
  have q0 : win0_3.index t (0 : Fin 4) = (i 0).val / 2 := congrFun ht 0
  have q1 : win0_3.index t (1 : Fin 4) = 0 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 2 ≤ (i 0).val ∧ (i 0).val < win0_3.index t (0 : Fin 4) * 2 + 2; omega
  | ⟨1, _⟩ => show win0_3.index t (1 : Fin 4) * 256 ≤ (i 1).val ∧ (i 1).val < win0_3.index t (1 : Fin 4) * 256 + 256; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- THE ARRAY after the run: the blocks tile it, so it holds `affine` everywhere. -/
theorem final (c : Dev nD) : (dats m 0 c).arrAt 3 cfg0.N =
    fun i => FloatOps.addf (FloatOps.mulf (V m c main_arg0 i) (V m c main_v59 (chan i))) (V m c main_v60 (chan i)) :=
  (dats m 0 c).arrAt_eq_of_cover 3 (affine m c) (fun t _ => flushed_eq m c t) covered

end Cert.KernelIdeal.Whole
end
-- ==== Proof.KernelHost.lean ====
/-
  The two per-channel tables the kernel's region reads, as the host operations before it leave them.
  With mean and var the 64 × 256 tables of per-sample statistics and ε the word 0x3727C5AC,
    scale[b,ch] = weight[ch] · (var[b,ch] + ε)^(-1/2),   shift[b,ch] = bias[ch] - mean[b,ch] · scale[b,ch],
  each reshaped to 64 × 256 × 1 × 1. The statistics tables are found by the region exactly as the
  reference computes them: the two programs spell the same operations on the same arguments.
-/
import proofs.«128349_j76192719831914_1_alg».proof.Proof.Gen.KernelIdeal.Frame
import proofs.«128349_j76192719831914_1_alg».proof.Proof.Gen.ReferenceIdeal.Read
import Idealize.ShloMosaic.Lib.Pipeline.Value
import Idealize.ShloMosaic.Lib.ValueIdx
import Idealize.ShloMosaic.Lib.StableHlo.Run
import Idealize.ShloMosaic.PureOps.Ideal

noncomputable section

namespace Cert.KernelIdeal.HostTables

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The table of scales before its reshape: weight over the root of the variance term, cell by cell. -/
abbrev scaleOf (w : FVec Ideal S256 .f32) (var : FVec Ideal S64x256 .f32) : FVec Ideal S64x256 .f32 :=
  mulf (broadcastInDim S64x256 ![0, 1] bcast_S1x256_S64x256_0_1 (broadcastInDim S1x256 ![1] bcast_S256_S1x256_1 w))
    (Host.rsqrt (addf var (broadcastInDim S64x256 ![] bcast_S_S64x256 (constant S_ .f32 0x3727C5AC#32))))

/-- The table of shifts before its reshape: bias minus mean times scale, cell by cell. -/
abbrev shiftOf (b : FVec Ideal S256 .f32) (mean scale : FVec Ideal S64x256 .f32) : FVec Ideal S64x256 .f32 :=
  subf (broadcastInDim S64x256 ![0, 1] bcast_S1x256_S64x256_0_1 (broadcastInDim S1x256 ![1] bcast_S256_S1x256_1 b))
    (mulf mean scale)

set_option maxRecDepth 8192 in
set_option maxHeartbeats 32000000 in
/-- The region finds the table of means as the reference's own stage of the same arguments. -/
theorem mean_eq (c : Dev nD) :
    (V m c main_v45 : S64x256.Idx → EReal) = Cert.ReferenceIdeal.Read.val_main_v45 (F := Ideal)
      (m ((c.tc : Thread nD τ).loc main_arg1)) (m ((c.tc : Thread nD τ).loc main_arg4))
      (m ((c.tc : Thread nD τ).loc main_arg6)) (m ((c.tc : Thread nD τ).loc main_arg8))
      (m ((c.tc : Thread nD τ).loc main_arg9)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxRecDepth 8192 in
set_option maxHeartbeats 32000000 in
/-- The region finds the table of variances as the reference's own stage of the same arguments. -/
theorem var_eq (c : Dev nD) :
    (V m c main_v48 : S64x256.Idx → EReal) = Cert.ReferenceIdeal.Read.val_main_v48 (F := Ideal)
      (m ((c.tc : Thread nD τ).loc main_arg1)) (m ((c.tc : Thread nD τ).loc main_arg5))
      (m ((c.tc : Thread nD τ).loc main_arg7)) (m ((c.tc : Thread nD τ).loc main_arg8))
      (m ((c.tc : Thread nD τ).loc main_arg9)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxRecDepth 8192 in
set_option maxHeartbeats 32000000 in
/-- The scale array the region reads is the reshaped table of scales over the variances found there. -/
theorem scale_eq (c : Dev nD) :
    (V m c main_v59 : S64x256x1x1.Idx → EReal)
      = shapeCast S64x256x1x1 (scaleOf (m ((c.tc : Thread nD τ).loc main_arg2)) (V m c main_v48))
          shapeCasts_S64x256_S64x256x1x1 := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

set_option maxRecDepth 8192 in
set_option maxHeartbeats 32000000 in
/-- The shift array the region reads is the reshaped table of shifts over the means and variances found there. -/
theorem shift_eq (c : Dev nD) :
    (V m c main_v60 : S64x256x1x1.Idx → EReal)
      = shapeCast S64x256x1x1 (shiftOf (m ((c.tc : Thread nD τ).loc main_arg3)) (V m c main_v45)
          (scaleOf (m ((c.tc : Thread nD τ).loc main_arg2)) (V m c main_v48))) shapeCasts_S64x256_S64x256x1x1 := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.HostTables

end
-- ==== Proof.TablesAt.lean ====
/-
  The kernel's two per-channel tables read at one entry. Entry (b, ch, 0, 0) of the reshaped arrays is
  entry (b, ch) of the 64 × 256 tables (row-major positions agree: the two trailing axes have extent one),
  a per-channel vector broadcast over the samples is read at the channel, and so
    scale[b,ch,0,0] = weight[ch] · rsqrt(var[b,ch] + ε),
    shift[b,ch,0,0] = bias[ch] - mean[b,ch] · (weight[ch] · rsqrt(var[b,ch] + ε)),
  with mean and var the reference's own stages of the arguments.
-/
import proofs.«128349_j76192719831914_1_alg».proof.Proof.KernelHost

noncomputable section

namespace Cert.KernelIdeal.HostTables

open Cert.KernelIdeal Cert.KernelIdeal.Gen Idealize.ShloMosaic Idealize.ShloMosaic.TcCoe Idealize.SL.Sem

variable (m : (ℓ : Loc nD τ sig) → Buf (Elt Ideal) ℓ)

/-- The weight vector as launched, at its literal type. -/
abbrev weightArr (c : Dev nD) : S256.Idx → EReal := m ((c.tc : Thread nD τ).loc main_arg2)

/-- The bias vector as launched, at its literal type. -/
abbrev biasArr (c : Dev nD) : S256.Idx → EReal := m ((c.tc : Thread nD τ).loc main_arg3)

/-- The cell of the 64 × 256 tables under an entry of a 64 × 256 × 1 × 1 array. -/
abbrev cell4 (j : S64x256x1x1.Idx) : S64x256.Idx := fun a => match a with
  | ⟨0, _⟩ => ⟨(j 0).val, (j 0).isLt⟩
  | ⟨1, _⟩ => ⟨(j 1).val, (j 1).isLt⟩

/-- The channel of a cell. -/
abbrev col (k : S64x256.Idx) : S256.Idx := fun a => match a with
  | ⟨0, _⟩ => ⟨(k 1).val, (k 1).isLt⟩

/-- The cell's place in the one-row intermediate of a per-channel broadcast. -/
abbrev rowOf (k : S64x256.Idx) : S1x256.Idx := fun a => match a with
  | ⟨0, _⟩ => ⟨0, Nat.one_pos⟩
  | ⟨1, _⟩ => ⟨(k 1).val, (k 1).isLt⟩

/-- A reshape that only appends two unit axes reads the table at the entry's cell. -/
theorem reshape_at (T : FVec Ideal S64x256 .f32) (j : S64x256x1x1.Idx) :
    shapeCast S64x256x1x1 T shapeCasts_S64x256_S64x256x1x1 j = T (cell4 j) := by
  refine shapeCast_apply T _ j (cell4 j) ?_
  have h2 : (j 2).val < 1 := (j 2).isLt
  have h3 : (j 3).val < 1 := (j 3).isLt
  rw [Shape.rowMajor_val_two, Shape.rowMajor_val_four]
  show (j 0).val * 256 + (j 1).val = (((j 0).val * 256 + (j 1).val) * 1 + (j 2).val) * 1 + (j 3).val
  omega

/-- A per-channel vector broadcast to the 64 × 256 table is read at the cell's channel. -/
theorem perChannel_at (w : FVec Ideal S256 .f32) (k : S64x256.Idx) :
    broadcastInDim S64x256 ![0, 1] bcast_S1x256_S64x256_0_1 (broadcastInDim S1x256 ![1] bcast_S256_S1x256_1 w) k
      = w (col k) := by
  refine (broadcastInDim_apply _ bcast_S1x256_S64x256_0_1 (broadcastInDim S1x256 ![1] bcast_S256_S1x256_1 w) k
    (rowOf k) (fun a => match a with
      | ⟨0, _⟩ => by show 0 = if (1 : Nat) = 1 then 0 else (k 0).val; rw [if_pos rfl]
      | ⟨1, _⟩ => by show (k 1).val = if (256 : Nat) = 1 then 0 else (k 1).val; rw [if_neg (by decide)])).trans ?_
  exact broadcastInDim_apply _ bcast_S256_S1x256_1 w (rowOf k) (col k) (fun a => match a with
    | ⟨0, _⟩ => by show (k 1).val = if (256 : Nat) = 1 then 0 else (k 1).val; rw [if_neg (by decide)])

/-- The broadcast ε is ε at every cell. -/
theorem eps_at (k : S64x256.Idx) :
    broadcastInDim S64x256 ![] bcast_S_S64x256 (constant (F := Ideal) S_ .f32 0x3727C5AC#32) k
      = Ideal.ofBits .f32 0x3727C5AC#32 :=
  broadcastInDim_apply _ bcast_S_S64x256 (constant (F := Ideal) S_ .f32 0x3727C5AC#32) k (fun a => a.elim0)
    (fun a => a.elim0)

/-- The table of scales at a cell. -/
theorem scaleOf_at (w : FVec Ideal S256 .f32) (var : FVec Ideal S64x256 .f32) (k : S64x256.Idx) :
    scaleOf w var k = w (col k) * Ideal.rsqrt (var k + Ideal.ofBits .f32 0x3727C5AC#32) := by
  show (broadcastInDim S64x256 ![0, 1] bcast_S1x256_S64x256_0_1 (broadcastInDim S1x256 ![1] bcast_S256_S1x256_1 w)) k
      * Ideal.rsqrt (var k + (broadcastInDim S64x256 ![] bcast_S_S64x256 (constant (F := Ideal) S_ .f32 0x3727C5AC#32)) k) = _
  rw [perChannel_at, eps_at]

/-- The table of shifts at a cell. -/
theorem shiftOf_at (b : FVec Ideal S256 .f32) (mean scale : FVec Ideal S64x256 .f32) (k : S64x256.Idx) :
    shiftOf b mean scale k = b (col k) - mean k * scale k := by
  show (broadcastInDim S64x256 ![0, 1] bcast_S1x256_S64x256_0_1 (broadcastInDim S1x256 ![1] bcast_S256_S1x256_1 b)) k
      - mean k * scale k = _
  rw [perChannel_at]

/-- The scale array the region reads, at an entry, over the reference's variance stage. -/
theorem scale_at (c : Dev nD) (j : S64x256x1x1.Idx) :
    (V m c main_v59 : S64x256x1x1.Idx → EReal) j
      = weightArr m c (col (cell4 j))
        * Ideal.rsqrt (Cert.ReferenceIdeal.Read.val_main_v48 (F := Ideal)
            (m ((c.tc : Thread nD τ).loc main_arg1)) (m ((c.tc : Thread nD τ).loc main_arg5))
            (m ((c.tc : Thread nD τ).loc main_arg7)) (m ((c.tc : Thread nD τ).loc main_arg8))
            (m ((c.tc : Thread nD τ).loc main_arg9)) (cell4 j) + Ideal.ofBits .f32 0x3727C5AC#32) := by
  rw [scale_eq, reshape_at, scaleOf_at, var_eq]

/-- The shift array the region reads, at an entry, over the reference's mean and variance stages. -/
theorem shift_at (c : Dev nD) (j : S64x256x1x1.Idx) :
    (V m c main_v60 : S64x256x1x1.Idx → EReal) j
      = biasArr m c (col (cell4 j))
        - Cert.ReferenceIdeal.Read.val_main_v45 (F := Ideal)
            (m ((c.tc : Thread nD τ).loc main_arg1)) (m ((c.tc : Thread nD τ).loc main_arg4))
            (m ((c.tc : Thread nD τ).loc main_arg6)) (m ((c.tc : Thread nD τ).loc main_arg8))
            (m ((c.tc : Thread nD τ).loc main_arg9)) (cell4 j)
          * (weightArr m c (col (cell4 j))
            * Ideal.rsqrt (Cert.ReferenceIdeal.Read.val_main_v48 (F := Ideal)
                (m ((c.tc : Thread nD τ).loc main_arg1)) (m ((c.tc : Thread nD τ).loc main_arg5))
                (m ((c.tc : Thread nD τ).loc main_arg7)) (m ((c.tc : Thread nD τ).loc main_arg8))
                (m ((c.tc : Thread nD τ).loc main_arg9)) (cell4 j) + Ideal.ofBits .f32 0x3727C5AC#32)) := by
  rw [shift_eq, reshape_at, shiftOf_at, scaleOf_at, mean_eq, var_eq]

end Cert.KernelIdeal.HostTables

end
-- ==== Proof.RefAt.lean ====
/-
  The reference's result read at one element. At index (b, ch, h, w) the reference returns
  ((x[b,ch,h,w] - mean[b,ch]) / √(var[b,ch] + ε)) · weight[ch] + bias[ch], where mean and var are the
  two 64 × 256 tables of per-sample statistics (the class blend where the class is used, the global
  statistics elsewhere) and ε is the word 0x3727C5AC: each broadcast only forgets the trailing coordinates.
-/
import proofs.«128349_j76192719831914_1_alg».proof.Proof.Gen.ReferenceIdeal.Read
import Idealize.ShloMosaic.Lib.ValueIdx
import Idealize.ShloMosaic.PureOps.Ideal

noncomputable section

namespace Cert.ReferenceIdeal.At

open Cert.ReferenceIdeal Cert.ReferenceIdeal.Read Idealize.ShloMosaic

/-- The (sample, channel) cell of the statistics tables that element `i` of the big array reads. -/
abbrev cell (i : S64x256x56x56.Idx) : S64x256.Idx := fun a => match a with
  | ⟨0, _⟩ => ⟨(i 0).val, (i 0).isLt⟩
  | ⟨1, _⟩ => ⟨(i 1).val, (i 1).isLt⟩

/-- The channel of element `i`. -/
abbrev chanOf (i : S64x256x56x56.Idx) : S256.Idx := fun a => match a with
  | ⟨0, _⟩ => ⟨(i 1).val, (i 1).isLt⟩

theorem cell_mean (i : S64x256x56x56.Idx) : idx_main_v49 (idx_main_v50 i) = cell i :=
  funext fun a => match a with | ⟨0, _⟩ => rfl | ⟨1, _⟩ => rfl

theorem cell_var (i : S64x256x56x56.Idx) : idx_main_v55 (idx_main_v56 i) = cell i :=
  funext fun a => match a with | ⟨0, _⟩ => rfl | ⟨1, _⟩ => rfl

theorem chan_weight (i : S64x256x56x56.Idx) : idx_main_v58 (idx_main_v59 i) = chanOf i :=
  funext fun a => match a with | ⟨0, _⟩ => rfl

theorem chan_bias (i : S64x256x56x56.Idx) : idx_main_v61 (idx_main_v62 i) = chanOf i :=
  funext fun a => match a with | ⟨0, _⟩ => rfl

/-- The reference's result at element `i`: normalise by the cell's statistics, then the channel's affine map. -/
theorem result_at (x0 : FVec Ideal S64x256x56x56 .f32) (x1 : IVec S64 32) (x2 x3 x4 x5 : FVec Ideal S256 .f32)
    (x6 x7 : FVec Ideal S1000x256 .f32) (x8 : FVec Ideal S1000 .f32) (x9 : FVec Ideal S_ .f32) (i : S64x256x56x56.Idx) :
    val_main_v63 (F := Ideal) x0 x1 x2 x3 x4 x5 x6 x7 x8 x9 i
      = Ideal.div (x0 i - val_main_v45 (F := Ideal) x1 x4 x6 x8 x9 (cell i))
            (Ideal.sqrt (val_main_v48 (F := Ideal) x1 x5 x7 x8 x9 (cell i) + Ideal.ofBits .f32 0x3727C5AC#32))
          * x2 (chanOf i) + x3 (chanOf i) := by
  rw [val_main_v63_apply, val_main_v60_apply, val_main_v57_apply, val_main_v51_apply, val_main_v50_apply,
    val_main_v49_apply, val_main_v56_apply, val_main_v55_apply, val_main_v54_apply, val_main_v53_apply,
    val_main_v52_apply, val_main_cst_9_apply, val_main_v59_apply, val_main_v58_apply, val_main_v62_apply,
    val_main_v61_apply, cell_mean, cell_var, chan_weight, chan_bias]
  rfl

end Cert.ReferenceIdeal.At

end
-- ==== Proof.VarPos.lean ====
/-
  The variance term under the root is positive. The table of variances holds, at a cell, either the clipped
  blend max(ε, ·) — at least ε — or the global variance of the cell's channel, which the precondition makes
  nonnegative; adding ε > 0 gives a positive extended real in both cases (possibly +∞).
-/
import proofs.«128349_j76192719831914_1_alg».proof.Proof.RefAt
import Idealize.ShloMosaic.PureOps.Ideal.Laws

noncomputable section

namespace Cert.ReferenceIdeal.At

open Cert.ReferenceIdeal Cert.ReferenceIdeal.Read Idealize.ShloMosaic

/-- The word 0x3727C5AC is a positive normal number (about 1e-5). -/
theorem eps_pos : (0 : EReal) < Ideal.ofBits .f32 0x3727C5AC#32 := by
  simp [Ideal.ofBits, Ideal.ieee, -EReal.coe_mul]

/-- A nonnegative extended real plus a positive one is positive (no strict monotonicity is needed: 0 < e ≤ a + e). -/
theorem pos_of_nonneg_add_pos (a e : EReal) (ha : 0 ≤ a) (he : 0 < e) : 0 < a + e :=
  lt_of_lt_of_le he (le_add_of_nonneg_left ha)

/-- The variance term at a cell is positive when every global variance is nonnegative. -/
theorem var_term_pos (x1 : IVec S64 32) (x5 : FVec Ideal S256 .f32) (x7 : FVec Ideal S1000x256 .f32)
    (x8 : FVec Ideal S1000 .f32) (x9 : FVec Ideal S_ .f32) (h5 : ∀ k, (0 : EReal) ≤ x5 k) (j : S64x256.Idx) :
    0 < val_main_v48 (F := Ideal) x1 x5 x7 x8 x9 j + Ideal.ofBits .f32 0x3727C5AC#32 := by
  rw [val_main_v48_apply]
  by_cases hb : val_main_call2_v0 (F := Ideal) x1 x8 x9 j = 1#1
  · rw [hb, ValueIdx.select_one, val_main_v42_apply, val_main_call0_v1_apply, val_main_call0_v0_apply,
      val_main_cst_8_apply]
    have h1 : (0 : EReal) ≤ max (Ideal.ofBits .f32 0x3727C5AC#32) (val_main_v41 (F := Ideal) x1 x5 x7 x9 j) :=
      le_trans eps_pos.le (le_max_left _ _)
    exact pos_of_nonneg_add_pos _ _ h1 eps_pos
  · rw [ValueIdx.eq_zero_of_ne_one hb, ValueIdx.select_zero, val_main_call2_v1_apply, val_main_v47_apply]
    exact pos_of_nonneg_add_pos _ _ (h5 _) eps_pos

end Cert.ReferenceIdeal.At

end
-- ==== Proof.Equal.lean ====
/-
  The kernel's result array is the reference's result, element by element, under the precondition.
  At element i = (b, ch, h, w) the kernel leaves x[i] · scale[b,ch] + shift[b,ch] with
  scale = weight[ch] · rsqrt(var[b,ch] + ε) and shift = bias[ch] - mean[b,ch] · scale, the reference
  ((x[i] - mean[b,ch]) / √(var[b,ch] + ε)) · weight[ch] + bias[ch], over the same tables mean and var.
  The precondition makes x, weight and bias real and the global variances nonnegative, so var + ε > 0,
  and the two expressions are one extended real (the law of Algebra.lean).
-/
import proofs.«128349_j76192719831914_1_alg».proof.Defs
import proofs.«128349_j76192719831914_1_alg».proof.Proof.Gen.Pre_finite_inputs
import proofs.«128349_j76192719831914_1_alg».proof.Proof.Algebra
import proofs.«128349_j76192719831914_1_alg».proof.Proof.PreRead
import proofs.«128349_j76192719831914_1_alg».proof.Proof.KernelArray
import proofs.«128349_j76192719831914_1_alg».proof.Proof.TablesAt
import proofs.«128349_j76192719831914_1_alg».proof.Proof.VarPos

noncomputable section

namespace Cert.Proof.Equal

open Cert.KernelIdeal Cert.KernelIdeal.Gen Idealize.ShloMosaic Idealize.ShloMosaic.TcCoe Idealize.SL.Sem
open Cert.KernelIdeal.Whole Cert.KernelIdeal.HostTables

variable (m : (ℓ : Loc nD τ sig) → Buf (Elt Ideal) ℓ)

/-- The per-channel entry an element reads sits over the element's (sample, channel) cell; -/
theorem cell_of_chan (i : S64x256x56x56.Idx) : cell4 (chan i) = Cert.ReferenceIdeal.At.cell i :=
  funext fun a => match a with | ⟨0, _⟩ => rfl | ⟨1, _⟩ => rfl

/-- and that cell's channel is the element's channel. -/
theorem col_of_cell (i : S64x256x56x56.Idx) : col (Cert.ReferenceIdeal.At.cell i) = Cert.ReferenceIdeal.At.chanOf i :=
  funext fun a => match a with | ⟨0, _⟩ => rfl

/-- One element: the kernel's fused multiply-add over its two tables is the reference's result there. -/
theorem at_element (hpre : Cert.Pre_KernelIdeal m) (c : Dev nD) (i : S64x256x56x56.Idx) :
    FloatOps.addf (F := Ideal) (φ := .f32)
        (FloatOps.mulf (F := Ideal) (φ := .f32) (V m c main_arg0 i) (V m c main_v59 (chan i))) (V m c main_v60 (chan i))
      = Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i := by
  obtain ⟨hx, hw, hb, hv⟩ := Cert.Proof.PreRead.of_pre _ _ _ _ _ _ _ _ _ _ (hpre c)
  rw [Cert.ReferenceIdeal.At.result_at, scale_at, shift_at, V_main_arg0, cell_of_chan, col_of_cell]
  obtain ⟨x, ex⟩ := hx i
  obtain ⟨w, ew⟩ := hw (Cert.ReferenceIdeal.At.chanOf i)
  obtain ⟨b, eb⟩ := hb (Cert.ReferenceIdeal.At.chanOf i)
  have hpos := Cert.ReferenceIdeal.At.var_term_pos (m ((c.tc : Thread nD τ).loc main_arg1))
    (m ((c.tc : Thread nD τ).loc main_arg5)) (m ((c.tc : Thread nD τ).loc main_arg7))
    (m ((c.tc : Thread nD τ).loc main_arg8)) (m ((c.tc : Thread nD τ).loc main_arg9)) hv
    (Cert.ReferenceIdeal.At.cell i)
  have key := Cert.Proof.Norm.fused_eq_normalized x w b
    (Cert.ReferenceIdeal.Read.val_main_v45 (F := Ideal) (m ((c.tc : Thread nD τ).loc main_arg1))
      (m ((c.tc : Thread nD τ).loc main_arg4)) (m ((c.tc : Thread nD τ).loc main_arg6))
      (m ((c.tc : Thread nD τ).loc main_arg8)) (m ((c.tc : Thread nD τ).loc main_arg9)) (Cert.ReferenceIdeal.At.cell i))
    _ hpos
  rw [← ex, ← ew, ← eb] at key
  exact key

/-- The whole array. -/
theorem array_eq (hpre : Cert.Pre_KernelIdeal m) (c : Dev nD) :
    (dats m 0 c).arrAt 3 cfg0.N
      = Cert.ReferenceIdeal.Read.val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Cert.KernelIdeal.Whole.final m c).trans (funext fun i => at_element m hpre c i)

/-- Both idealized programs run, to the same result array and unchanged arguments. -/
theorem algebraic : Cert.algebraic_KernelIdeal_ReferenceIdeal := by
  intro m ρ m' ρ' hpre hagree
  refine ⟨fun c => Cert.ReferenceIdeal.Read.val_main_v63 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono (fun r h c => ⟨(h c).1.trans (array_eq m hpre c), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v63_eq, e0, e1, e2, e3, e4, e5, e6, e7, e8, e9]

end Cert.Proof.Equal

end
-- ==== Proof.lean ====
/-
  Class-conditional batch normalisation in evaluation mode, 64 × 256 × 56 × 56: the kernel folds the
  per-(sample, channel) statistics into a scale w · rsqrt(var + ε) and a shift b - mean · scale on the host and
  applies one fused multiply-add x · scale + shift per element in its region; the reference computes
  ((x - mean) / √(var + ε)) · w + b. Both build the tables mean and var by the same operations (the class blend,
  clipped below at ε for the variance, where the class is used; the global statistics elsewhere).

  The claim holds where every float input is finite and every global variance is nonnegative: then var + ε is
  positive at every cell (the blend is clipped at ε, the global variance is ≥ 0), the square root is taken inside
  its domain and the divisor is not zero, and the two expressions are the same extended real (Proof/Algebra.lean:
  distributivity over the reals, and a case check at an infinite mean or variance term). Outside that domain the
  reference divides by the root of a nonpositive number.

  The three frames: the kernel's two are the generated frame certificates; the reference has no kernel and its
  frame is its run with the result dropped. The idealization rewrote nothing, so `preserves` is trivial.
  The value claim is Proof/Equal.lean, over: the region's output array as one function of the arrays it reads
  (Proof/KernelArray.lean), the two host tables read at an entry (Proof/KernelHost.lean, Proof/TablesAt.lean),
  the reference's result read at an element (Proof/RefAt.lean), what the precondition says of the inputs
  (Proof/PreRead.lean) and the positivity of the variance term (Proof/VarPos.lean).
-/
import proofs.«128349_j76192719831914_1_alg».proof.Defs
import proofs.«128349_j76192719831914_1_alg».proof.Proof.Gen.Kernel
import proofs.«128349_j76192719831914_1_alg».proof.Proof.Gen.Kernel.Skeleton
import proofs.«128349_j76192719831914_1_alg».proof.Proof.Gen.Kernel.Launch
import proofs.«128349_j76192719831914_1_alg».proof.Proof.Gen.Kernel.Points
import proofs.«128349_j76192719831914_1_alg».proof.Proof.Gen.Kernel.Frame
import proofs.«128349_j76192719831914_1_alg».proof.Proof.Gen.KernelIdeal
import proofs.«128349_j76192719831914_1_alg».proof.Proof.Gen.KernelIdeal.Skeleton
import proofs.«128349_j76192719831914_1_alg».proof.Proof.Gen.KernelIdeal.Launch
import proofs.«128349_j76192719831914_1_alg».proof.Proof.Gen.KernelIdeal.Points
import proofs.«128349_j76192719831914_1_alg».proof.Proof.Gen.KernelIdeal.Frame
import proofs.«128349_j76192719831914_1_alg».proof.Proof.Gen.ReferenceIdeal
import proofs.«128349_j76192719831914_1_alg».proof.Proof.Gen.Pre_finite_inputs
import proofs.«128349_j76192719831914_1_alg».proof.Proof.Gen.KernelIdeal.Value
import proofs.«128349_j76192719831914_1_alg».proof.Proof.Gen.ReferenceIdeal.Run
import proofs.«128349_j76192719831914_1_alg».proof.Proof.Gen.ReferenceIdeal.Read
import proofs.«128349_j76192719831914_1_alg».proof.Proof.Equal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  Cert.Proof.Equal.algebraic⟩

end Cert.Proof

end
